-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x40x64 : Shape := ⟨3, ![16384, 40, 64]⟩
abbrev S64x64 : Shape := ⟨2, ![64, 64]⟩
abbrev S_ : Shape := ⟨0, ![]⟩

class Facts : Prop where
  bcast_S_S16384x40x64 : S_.BroadcastsInDim S16384x40x64 (![] : Fin 0 → Fin S16384x40x64.rank)
  reducesTo_S16384x40x64_S_d0_1_2 : S16384x40x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S16384x40x64 .f32) (main_arg1 : FVec F S64x64 .f32) (main_arg2 : FVec F S64x64 .f32) (main_arg3 : FVec F S64x64 .f32) (main_arg4 : FVec F S64x64 .f32) : IVec S_ 1 :=
  let main_v0 : FVec F S16384x40x64 .f32 := Host.absf main_arg0
  let main_cst : FVec F S_ .f32 := constant S_ .f32 0x7F800000#32
  let main_v1 : FVec F S16384x40x64 .f32 := broadcastInDim S16384x40x64 ![] bcast_S_S16384x40x64 main_cst
  let main_v2 : IVec S16384x40x64 1 := cmpf .olt main_v0 main_v1
  let main_c : IVec S_ 1 := constantI S_ 1 1#1
  let main_v3 : IVec S_ 1 := (fun x v => Host.reduce IntOp.andi x v reducesTo_S16384x40x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S16384x40x64 : Shape := ⟨3, ![16384, 40, 64]⟩
abbrev S64x64 : Shape := ⟨2, ![64, 64]⟩
abbrev S128x40x64 : Shape := ⟨3, ![128, 40, 64]⟩
abbrev S5120x64 : Shape := ⟨2, ![5120, 64]⟩
abbrev S128x40x40 : Shape := ⟨3, ![128, 40, 40]⟩
abbrev S128x40 : Shape := ⟨2, ![128, 40]⟩
abbrev S128x40x1 : Shape := ⟨3, ![128, 40, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x40x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16384x40x64, .f32⟩
  | .local _ .vmem, ⟨0, _⟩ => ⟨S128x40x64, .f32⟩
  | .local _ .vmem, ⟨1, _⟩ => ⟨S128x40x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S128x40x64, .f32⟩
  | .local _ .vmem, ⟨7, _⟩ => ⟨S128x40x64, .f32⟩
  | _, _ => ⟨S16384x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x40x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x40x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S128x40x64_S128x40x64_0_0_0 : ∀ a, (![0, 0, 0] : Fin 3 → Nat) a + S128x40x64.size a ≤ S128x40x64.size a
  h_S128x40x64 : 0 < S128x40x64.numel
  bitsLt_bf16_f32 : FTy.bits .bf16 < FTy.bits .f32
  shapeCasts_S128x40x64_S5120x64 : S128x40x64.ShapeCasts S5120x64
  inb_S64x64_S64x64_0_0 : ∀ a, (![0, 0] : Fin 2 → Nat) a + S64x64.size a ≤ S64x64.size a
  h_S64x64 : 0 < S64x64.numel
  shapeCasts_S5120x64_S128x40x64 : S5120x64.ShapeCasts S128x40x64
  reduces_S128x40x40_S128x40 : S128x40x40.Reduces [2] S128x40
  shapeCasts_S128x40_S128x40x1 : S128x40.ShapeCasts S128x40x1
  broadcasts_S128x40x1_S128x40x40 : S128x40x1.Broadcasts S128x40x40
  dot_S5120x64_S64x64_S5120x64_1_0_0_1_n_n_wf : DotDims.WF S5120x64 S64x64 S5120x64 [1] [0] [0] [1] [] []
  dot_S128x40x64_S128x40x64_S128x40x40_2_2_1_1_0_0_wf : DotDims.WF S128x40x64 S128x40x64 S128x40x40 [2] [2] [1] [1] [0] [0]
  dot_S128x40x40_S128x40x64_S128x40x64_2_1_1_2_0_0_wf : DotDims.WF S128x40x40 S128x40x64 S128x40x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x40x64.size a ≤ S16384x40x64.size a
  hwx0_0 : ∀ i : grid0.Coords, EltTy.bits .f32 = 32 ∨ (Rect.block (s := S16384x40x64) S128x40x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x40x64.size a ≤ S16384x40x64.size a
  hwx0_5 : ∀ i : grid0.Coords, EltTy.bits .f32 = 32 ∨ (Rect.block (s := S16384x40x64) S128x40x64.size (cc0_transform_5 i) (hinb0_5 i)).WholeWords (EltTy.packing .f32)

variable [Facts₀]

def dot_S5120x64_S64x64_S5120x64_1_0_0_1_n_n : DotDims S5120x64 S64x64 S5120x64 where
  lhsContracting := [1]
  rhsContracting := [0]
  lhsNonContracting := [0]
  rhsNonContracting := [1]
  lhsBatch := []
  rhsBatch := []
  wf := dot_S5120x64_S64x64_S5120x64_1_0_0_1_n_n_wf
def dot_S128x40x64_S128x40x64_S128x40x40_2_2_1_1_0_0 : DotDims S128x40x64 S128x40x64 S128x40x40 where
  lhsContracting := [2]
  rhsContracting := [2]
  lhsNonContracting := [1]
  rhsNonContracting := [1]
  lhsBatch := [0]
  rhsBatch := [0]
  wf := dot_S128x40x64_S128x40x64_S128x40x40_2_2_1_1_0_0_wf
def dot_S128x40x40_S128x40x64_S128x40x64_2_1_1_2_0_0 : DotDims S128x40x40 S128x40x64 S128x40x64 where
  lhsContracting := [2]
  rhsContracting := [1]
  lhsNonContracting := [1]
  rhsNonContracting := [2]
  lhsBatch := [0]
  rhsBatch := [0]
  wf := dot_S128x40x40_S128x40x64_S128x40x64_2_1_1_2_0_0_wf

abbrev win0_0 : Pipeline.Window sig grid0 :=
  Pipeline.Window.ofSpec (Memref.whole main_arg0) S128x40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x40x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x40x64 : Shape := ⟨3, ![16384, 40, 64]⟩
abbrev S64x64 : Shape := ⟨2, ![64, 64]⟩
abbrev S16384x40x40 : Shape := ⟨3, ![16384, 40, 40]⟩
abbrev S_ : Shape := ⟨0, ![]⟩
abbrev S16384x40 : Shape := ⟨2, ![16384, 40]⟩
abbrev S16384x40x1 : Shape := ⟨3, ![16384, 40, 1]⟩

abbrev nBuf : Space → Nat
  | .hbm => 29
  | .vmem => 0
  | .smem => 0
  | _ => 0

abbrev bufTy : (tb : Table) → Fin (tcTables nBuf tb) → BufTy
  | .hbm, ⟨0, _⟩ => ⟨S16384x40x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S16384x40x64, .f32⟩
  | .hbm, ⟨6, _⟩ => ⟨S16384x40x64, .f32⟩
  | .hbm, ⟨7, _⟩ => ⟨S16384x40x64, .f32⟩
  | .hbm, ⟨8, _⟩ => ⟨S16384x40x40, .f32⟩
  | .hbm, ⟨9, _⟩ => ⟨S_, .f32⟩
  | .hbm, ⟨10, _⟩ => ⟨S16384x40, .f32⟩
  | .hbm, ⟨11, _⟩ => ⟨S_, .f32⟩
  | .hbm, ⟨12, _⟩ => ⟨S16384x40, .f32⟩
  | .hbm, ⟨13, _⟩ => ⟨S16384x40, .f32⟩
  | .hbm, ⟨14, _⟩ => ⟨S16384x40x1, .f32⟩
  | .hbm, ⟨15, _⟩ => ⟨S16384x40x40, .f32⟩
  | .hbm, ⟨16, _⟩ => ⟨S16384x40x40, .f32⟩
  | .hbm, ⟨17, _⟩ => ⟨S16384x40x40, .f32⟩
  | .hbm, ⟨18, _⟩ => ⟨S_, .f32⟩
  | .hbm, ⟨19, _⟩ => ⟨S16384x40, .f32⟩
  | .hbm, ⟨20, _⟩ => ⟨S16384x40x1, .f32⟩
  | .hbm, ⟨21, _⟩ => ⟨S16384x40x40, .f32⟩
  | .hbm, ⟨22, _⟩ => ⟨S16384x40x40, .f32⟩
  | .hbm, ⟨23, _⟩ => ⟨S16384x40x64, .f32⟩
  | .hbm, ⟨24, _⟩ => ⟨S16384x40x64, .f32⟩
  | .hbm, ⟨25, _⟩ => ⟨S16384x40x64, .f32⟩
  | .hbm, ⟨26, _⟩ => ⟨S_, .f32⟩
  | .hbm, ⟨27, _⟩ => ⟨S16384x40x64, .f32⟩
  | .hbm, ⟨28, _⟩ => ⟨S16384x40x64, .f32⟩
  | _, _ => ⟨S16384x40x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S16384x40x40_S16384x40_d2 : S16384x40x40.ReducesTo [2] S16384x40
  h_S_ : 0 < S_.numel
  bcast_S_S16384x40 : S_.BroadcastsInDim S16384x40 (![] : Fin 0 → Fin S16384x40.rank)
  bcast_S16384x40_S16384x40x1_0_1 : S16384x40.BroadcastsInDim S16384x40x1 (![0, 1] : Fin 2 → Fin S16384x40x1.rank)
  bcast_S16384x40x1_S16384x40x40_0_1_2 : S16384x40x1.BroadcastsInDim S16384x40x40 (![0, 1, 2] : Fin 3 → Fin S16384x40x40.rank)
  bcast_S_S16384x40x64 : S_.BroadcastsInDim S16384x40x64 (![] : Fin 0 → Fin S16384x40x64.rank)
  dot_S16384x40x64_S64x64_S16384x40x64_2_0_01_1_n_n_wf : DotDims.WF S16384x40x64 S64x64 S16384x40x64 [2] [0] [0, 1] [1] [] []
  dot_S16384x40x64_S16384x40x64_S16384x40x40_2_2_1_1_0_0_wf : DotDims.WF S16384x40x64 S16384x40x64 S16384x40x40 [2] [2] [1] [1] [0] [0]
  dot_S16384x40x40_S16384x40x64_S16384x40x64_2_1_1_2_0_0_wf : DotDims.WF S16384x40x40 S16384x40x64 S16384x40x64 [2] [1] [1] [2] [0] [0]

variable [Facts₀]

def dot_S16384x40x64_S64x64_S16384x40x64_2_0_01_1_n_n : DotDims S16384x40x64 S64x64 S16384x40x64 where
  lhsContracting := [2]
  rhsContracting := [0]
  lhsNonContracting := [0, 1]
  rhsNonContracting := [1]
  lhsBatch := []
  rhsBatch := []
  wf := dot_S16384x40x64_S64x64_S16384x40x64_2_0_01_1_n_n_wf
def dot_S16384x40x64_S16384x40x64_S16384x40x40_2_2_1_1_0_0 : DotDims S16384x40x64 S16384x40x64 S16384x40x40 where
  lhsContracting := [2]
  rhsContracting := [2]
  lhsNonContracting := [1]
  rhsNonContracting := [1]
  lhsBatch := [0]
  rhsBatch := [0]
  wf := dot_S16384x40x64_S16384x40x64_S16384x40x40_2_2_1_1_0_0_wf
def dot_S16384x40x40_S16384x40x64_S16384x40x64_2_1_1_2_0_0 : DotDims S16384x40x40 S16384x40x64 S16384x40x64 where
  lhsContracting := [2]
  rhsContracting := [1]
  lhsNonContracting := [1]
  rhsNonContracting := [2]
  lhsBatch := [0]
  rhsBatch := [0]
  wf := dot_S16384x40x40_S16384x40x64_S16384x40x64_2_1_1_2_0_0_wf

class Facts : Prop extends Facts₀ where

variable [Facts]
-- ==== Proof.AttnSpec.lean ====
/-
  Self-attention over the field axis, one batch row at a time, on the extended reals.

  A row is a 40 x 64 matrix X (40 fields, 64 features); the four weights are 64 x 64.  With the projections
  Q = X Wq, K = X Wk, V = X Wv, R = X Wr (each entry a sum over the 64 features), the scores are
  S[a,c] = sum_e Q[a,e] K[c,e], a row's maximum is taken from minus infinity (and once more against minus
  infinity), E[a,c] = exp (S[a,c] - max_a), the weights are E[a,c] / sum_c' E[a,c'], and the result is
  max (sum_c P[a,c] V[c,e] + R[a,e], 0).  The batch rows do not interact, so an array of B rows is the row
  function applied to each row: this is what lets a block of 128 rows be a restriction of the whole array.
-/
import Idealize.ShloMosaic.PureOps.Ideal
import Idealize.ShloMosaic.Lib.ValueIdx

noncomputable section

open scoped BigOperators

namespace Cert.Attn

open Idealize.ShloMosaic Idealize.ShloMosaic.ValueIdx

/-- The single-precision word of minus infinity, as an extended real. -/
abbrev negInf : EReal := Ideal.ofBits .f32 0xFF800000#32
/-- The single-precision word of zero, as an extended real. -/
abbrev zero32 : EReal := Ideal.ofBits .f32 0x00000000#32

/-- A projection of the row: entry (f, e) is the sum over the features d of X[f,d] W[d,e]. -/
def proj (X : Fin 40 → Fin 64 → EReal) (W : Fin 64 → Fin 64 → EReal) (f : Fin 40) (e : Fin 64) : EReal :=
  ∑ d : Fin 64, X f d * W d e

/-- The score of field a against field c: the inner product of the query of a and the key of c. -/
def score (X : Fin 40 → Fin 64 → EReal) (Wq Wk : Fin 64 → Fin 64 → EReal) (a c : Fin 40) : EReal :=
  ∑ e : Fin 64, proj X Wq a e * proj X Wk c e

/-- The maximum of field a's scores, folded from minus infinity and taken once more against it. -/
def rowMax (X : Fin 40 → Fin 64 → EReal) (Wq Wk : Fin 64 → Fin 64 → EReal) (a : Fin 40) : EReal :=
  max negInf ((Finset.univ : Finset (Fin 40)).fold max negInf (fun c => score X Wq Wk a c))

/-- The exponential of a score shifted by its row's maximum. -/
def expo (X : Fin 40 → Fin 64 → EReal) (Wq Wk : Fin 64 → Fin 64 → EReal) (a c : Fin 40) : EReal :=
  Ideal.exp (score X Wq Wk a c - rowMax X Wq Wk a)

/-- The sum of a row's shifted exponentials. -/
def denom (X : Fin 40 → Fin 64 → EReal) (Wq Wk : Fin 64 → Fin 64 → EReal) (a : Fin 40) : EReal :=
  ∑ c : Fin 40, expo X Wq Wk a c

/-- The attention weight of field c for field a. -/
def prob (X : Fin 40 → Fin 64 → EReal) (Wq Wk : Fin 64 → Fin 64 → EReal) (a c : Fin 40) : EReal :=
  Ideal.div (expo X Wq Wk a c) (denom X Wq Wk a)

/-- One row of the result: the weighted values plus the residual projection, clipped below at zero. -/
def attnRow (X : Fin 40 → Fin 64 → EReal) (Wq Wk Wv Wr : Fin 64 → Fin 64 → EReal) (f : Fin 40) (e : Fin 64) : EReal :=
  max ((∑ c : Fin 40, prob X Wq Wk f c * proj X Wv c e) + proj X Wr f e) zero32

/-- Row b of an array of B rows. -/
abbrev rowOf {B : ℕ} (x : (⟨3, ![B, 40, 64]⟩ : Shape).Idx → EReal) (b : Fin B) : Fin 40 → Fin 64 → EReal :=
  fun f d => x (ix3 b f d)

/-- A 64 x 64 weight array as a function of its two coordinates. -/
abbrev matOf (w : (⟨2, ![64, 64]⟩ : Shape).Idx → EReal) : Fin 64 → Fin 64 → EReal :=
  fun d e => w (ix2 d e)

/-- The whole result for B rows: every row through the row function. -/
def attnArr {B : ℕ} (x : (⟨3, ![B, 40, 64]⟩ : Shape).Idx → EReal) (wq wk wv wr : (⟨2, ![64, 64]⟩ : Shape).Idx → EReal) :
    (⟨3, ![B, 40, 64]⟩ : Shape).Idx → EReal :=
  fun i => attnRow (rowOf x (i 0)) (matOf wq) (matOf wk) (matOf wv) (matOf wr) (i 1) (i 2)

/-- The result at coordinates (b, f, e). -/
theorem attnArr_ix3 {B : ℕ} (x : (⟨3, ![B, 40, 64]⟩ : Shape).Idx → EReal) (wq wk wv wr : (⟨2, ![64, 64]⟩ : Shape).Idx → EReal)
    (b : Fin B) (f : Fin 40) (e : Fin 64) :
    attnArr x wq wk wv wr (ix3 b f e) = attnRow (rowOf x b) (matOf wq) (matOf wk) (matOf wv) (matOf wr) f e := rfl

end Cert.Attn

end
-- ==== Proof.RefStages.lean ====
/-
  The reference, stage by stage, is the row function.

  Every operation of the reference keeps the batch coordinate: the three-axis products contract the feature axis
  (or the field axis) inside one batch row, and the two reductions run over the last axis of a row's 40 x 40 scores.
  So each stage, read at batch coordinate b, is the matching piece of the row function applied to row b of the
  input: the projections, the scores, the row maximum, the shifted exponentials, their sum, the weights, and the
  weighted values plus the residual projection clipped at zero.
-/
import proofs.«156122_j76630806495342_1_alg».proof.Proof.Gen.ReferenceIdeal.Read
import proofs.«156122_j76630806495342_1_alg».proof.Proof.AttnSpec
import Idealize.ShloMosaic.PureOps.Ideal.Laws

noncomputable section

open scoped BigOperators

namespace Cert.Attn.Ref

open Cert.ReferenceIdeal Cert.ReferenceIdeal.Gen Cert.ReferenceIdeal.Read Idealize.ShloMosaic Idealize.ShloMosaic.ValueIdx Cert.Attn

/-- Two index functions of rank two with the same coordinates. -/
local macro "idx2_rfl" : tactic => `(tactic| (funext a; match a with | ⟨0, _⟩ => rfl | ⟨1, _⟩ => rfl))
/-- Two index functions of rank three with the same coordinates. -/
local macro "idx3_rfl" : tactic => `(tactic| (funext a; match a with | ⟨0, _⟩ => rfl | ⟨1, _⟩ => rfl | ⟨2, _⟩ => rfl))

variable (x0 : (⟨S16384x40x64, .f32⟩ : BufTy).Contents (Elt Ideal)) (x1 x2 x3 x4 : (⟨S64x64, .f32⟩ : BufTy).Contents (Elt Ideal))

/-- The query projection at (b, f, e): row b's projection by the first weight. -/
theorem v0_at (b : Fin 16384) (f : Fin 40) (e : Fin 64) :
    val_main_v0 (F := Ideal) x0 x1 (ix3 b f e) = proj (rowOf (B := 16384) x0 b) (matOf x1) f e := by
  rw [val_main_v0_apply]; unfold proj
  refine Finset.sum_congr rfl fun k _ => ?_
  rw [show lidx_main_v0 (ix3 b f e) k = ix3 b f k by idx3_rfl, show ridx_main_v0 (ix3 b f e) k = ix2 k e by idx2_rfl]

/-- The key projection at (b, f, e). -/
theorem v1_at (b : Fin 16384) (f : Fin 40) (e : Fin 64) :
    val_main_v1 (F := Ideal) x0 x2 (ix3 b f e) = proj (rowOf (B := 16384) x0 b) (matOf x2) f e := by
  rw [val_main_v1_apply]; unfold proj
  refine Finset.sum_congr rfl fun k _ => ?_
  rw [show lidx_main_v1 (ix3 b f e) k = ix3 b f k by idx3_rfl, show ridx_main_v1 (ix3 b f e) k = ix2 k e by idx2_rfl]

/-- The value projection at (b, f, e). -/
theorem v2_at (b : Fin 16384) (f : Fin 40) (e : Fin 64) :
    val_main_v2 (F := Ideal) x0 x3 (ix3 b f e) = proj (rowOf (B := 16384) x0 b) (matOf x3) f e := by
  rw [val_main_v2_apply]; unfold proj
  refine Finset.sum_congr rfl fun k _ => ?_
  rw [show lidx_main_v2 (ix3 b f e) k = ix3 b f k by idx3_rfl, show ridx_main_v2 (ix3 b f e) k = ix2 k e by idx2_rfl]

/-- The residual projection at (b, f, e). -/
theorem v16_at (b : Fin 16384) (f : Fin 40) (e : Fin 64) :
    val_main_v16 (F := Ideal) x0 x4 (ix3 b f e) = proj (rowOf (B := 16384) x0 b) (matOf x4) f e := by
  rw [val_main_v16_apply]; unfold proj
  refine Finset.sum_congr rfl fun k _ => ?_
  rw [show lidx_main_v16 (ix3 b f e) k = ix3 b f k by idx3_rfl, show ridx_main_v16 (ix3 b f e) k = ix2 k e by idx2_rfl]

/-- The scores at (b, a, c): query a against key c, inside row b. -/
theorem v3_at (b : Fin 16384) (a c : Fin 40) :
    val_main_v3 (F := Ideal) x0 x1 x2 (ix3 b a c) = score (rowOf (B := 16384) x0 b) (matOf x1) (matOf x2) a c := by
  rw [val_main_v3_apply]; unfold score
  refine Finset.sum_congr rfl fun k _ => ?_
  rw [show lidx_main_v3 (ix3 b a c) k = ix3 b a k by idx3_rfl, show ridx_main_v3 (ix3 b a c) k = ix3 b c k by idx3_rfl,
    v0_at, v1_at]

/-- The maximum over the last axis at (b, a): the fold of max from minus infinity over row b's scores of field a. -/
theorem v4_at (b : Fin 16384) (a : Fin 40) :
    val_main_v4 (F := Ideal) x0 x1 x2 (ix2 b a)
      = (Finset.univ : Finset (Fin 40)).fold max negInf (fun c => score (rowOf (B := 16384) x0 b) (matOf x1) (matOf x2) a c) := by
  have hR : S16384x40x40.Reduces [2] S16384x40 := by decide
  unfold val_main_v4
  rw [Host.reduce_eq_fold_single FloatOps.maximumf _ _ reducesTo_S16384x40x40_S16384x40_d2 hR h_S_]
  refine Finset.fold_congr fun (c : Fin 40) _ => ?_
  show val_main_v3 (F := Ideal) x0 x1 x2 (hR.lift (ix2 b a) c) = _
  rw [show hR.lift (ix2 b a) c = ix3 b a c from funext fun d => Fin.ext (by
    match d with | ⟨0, _⟩ => rfl | ⟨1, _⟩ => rfl | ⟨2, _⟩ => rfl), v3_at]

/-- The row maximum at (b, a). -/
theorem v6_at (b : Fin 16384) (a : Fin 40) :
    val_main_v6 (F := Ideal) x0 x1 x2 (ix2 b a) = rowMax (rowOf (B := 16384) x0 b) (matOf x1) (matOf x2) a := by
  rw [val_main_v6_apply, val_main_v5_apply, val_main_cst_0_apply, v4_at]; rfl

/-- The row maximum spread over the last axis. -/
theorem v8_at (b : Fin 16384) (a c : Fin 40) :
    val_main_v8 (F := Ideal) x0 x1 x2 (ix3 b a c) = rowMax (rowOf (B := 16384) x0 b) (matOf x1) (matOf x2) a := by
  rw [val_main_v8_apply, val_main_v7_apply, show idx_main_v7 (idx_main_v8 (ix3 b a c)) = ix2 b a by idx2_rfl, v6_at]

/-- The shifted exponentials at (b, a, c). -/
theorem v10_at (b : Fin 16384) (a c : Fin 40) :
    val_main_v10 (F := Ideal) x0 x1 x2 (ix3 b a c) = expo (rowOf (B := 16384) x0 b) (matOf x1) (matOf x2) a c := by
  rw [val_main_v10_apply, val_main_v9_apply, v3_at, v8_at]; rfl

/-- Their sum over the last axis at (b, a): the initial value is zero. -/
theorem v11_at (b : Fin 16384) (a : Fin 40) :
    val_main_v11 (F := Ideal) x0 x1 x2 (ix2 b a) = denom (rowOf (B := 16384) x0 b) (matOf x1) (matOf x2) a := by
  rw [val_main_v11_apply, val_main_cst_1_apply, Ideal.ofBits_def, Ideal.ofBits_zero_f32, zero_add]; unfold denom
  refine Finset.sum_congr rfl fun k _ => ?_
  rw [show idx_main_v11 (ix2 b a) k = ix3 b a k by idx3_rfl, v10_at]

/-- The sum spread over the last axis. -/
theorem v13_at (b : Fin 16384) (a c : Fin 40) :
    val_main_v13 (F := Ideal) x0 x1 x2 (ix3 b a c) = denom (rowOf (B := 16384) x0 b) (matOf x1) (matOf x2) a := by
  rw [val_main_v13_apply, val_main_v12_apply, show idx_main_v12 (idx_main_v13 (ix3 b a c)) = ix2 b a by idx2_rfl, v11_at]

/-- The attention weights at (b, a, c). -/
theorem v14_at (b : Fin 16384) (a c : Fin 40) :
    val_main_v14 (F := Ideal) x0 x1 x2 (ix3 b a c) = prob (rowOf (B := 16384) x0 b) (matOf x1) (matOf x2) a c := by
  rw [val_main_v14_apply, v10_at, v13_at]; rfl

/-- The weighted values at (b, f, e): the weights of field f against the value projection, inside row b. -/
theorem v15_at (b : Fin 16384) (f : Fin 40) (e : Fin 64) :
    val_main_v15 (F := Ideal) x0 x1 x2 x3 (ix3 b f e)
      = ∑ c : Fin 40, prob (rowOf (B := 16384) x0 b) (matOf x1) (matOf x2) f c * proj (rowOf (B := 16384) x0 b) (matOf x3) c e := by
  rw [val_main_v15_apply]
  refine Finset.sum_congr rfl fun k _ => ?_
  rw [show lidx_main_v15 (ix3 b f e) k = ix3 b f k by idx3_rfl, show ridx_main_v15 (ix3 b f e) k = ix3 b k e by idx3_rfl,
    v14_at, v2_at]

/-- The result at (b, f, e) is the row function of row b. -/
theorem v18_at (b : Fin 16384) (f : Fin 40) (e : Fin 64) :
    val_main_v18 (F := Ideal) x0 x1 x2 x3 x4 (ix3 b f e)
      = attnRow (rowOf (B := 16384) x0 b) (matOf x1) (matOf x2) (matOf x3) (matOf x4) f e := by
  rw [val_main_v18_apply, val_main_v17_apply, v15_at, v16_at, val_main_call0_v0_apply, val_main_call0_cst_apply]; rfl

/-- The reference's result is the row function on every row. -/
theorem ref_eq : val_main_v18 (F := Ideal) x0 x1 x2 x3 x4 = attnArr (B := 16384) x0 x1 x2 x3 x4 := by
  funext i
  obtain ⟨b, f, e, rfl⟩ : ∃ (b : Fin 16384) (f : Fin 40) (e : Fin 64), i = ix3 b f e := ⟨i 0, i 1, i 2, eq_ix3 i⟩
  exact v18_at x0 x1 x2 x3 x4 b f e

end Cert.Attn.Ref

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KernelStages.lean ====
/-
  The kernel's block, stage by stage, is the row function.

  One grid point loads a block of 128 batch rows and the four weights, and computes: the four projections as one
  5120 x 64 by 64 x 64 product each (the block's rows (p, f) laid out as row 40 p + f), the scores as a product
  batched over the 128 rows, a row's maximum over the last axis (a fold from minus infinity, then once more against
  it), the shifted exponentials, their sum over the last axis, the quotient, the product with the values batched
  over the rows, the sum with the residual projection, and the maximum with zero.  Narrowing to sixteen bits is the
  identity on extended reals.  Each stage read at block row p is the matching piece of the row function applied to
  row p of the block.
-/
import proofs.«156122_j76630806495342_1_alg».proof.Proof.Gen.KernelIdeal.Skeleton
import proofs.«156122_j76630806495342_1_alg».proof.Proof.AttnSpec
import proofs.«156122_j76630806495342_1_alg».proof.Proof.LibPlainDot
import Idealize.ShloMosaic.PureOps.Ideal.Laws
import Idealize.ShloMosaic.Lib.Pipeline.Value

noncomputable section

open scoped BigOperators

namespace Cert.Attn.Ker

open Cert.KernelIdeal Cert.KernelIdeal.Gen Idealize.ShloMosaic Idealize.ShloMosaic.ValueIdx Cert.Attn

/-! ### Layout: rows (p, f) of a block as row 40 p + f of a matrix, and a column spread over the last axis -/

/-- A block viewed as a 5120 x 64 matrix: its row 40 p + f is the block's row (p, f). -/
theorem flat_at {α : Type} (y : S128x40x64.Idx → α) (p : Fin 128) (f : Fin 40) (d : Fin 64) (h : p.val * 40 + f.val < 5120) :
    shapeCast S5120x64 y shapeCasts_S128x40x64_S5120x64 (ix2 (⟨p.val * 40 + f.val, h⟩ : Fin 5120) d) = y (ix3 p f d) := by
  refine shapeCast_apply y _ _ (ix3 p f d) ?_
  rw [Shape.rowMajor_val_three, Shape.rowMajor_val_two]
  rfl

/-- A 5120 x 64 matrix viewed as a block: the block's row (p, f) is the matrix's row 40 p + f. -/
theorem unflat_at {α : Type} (y : S5120x64.Idx → α) (p : Fin 128) (f : Fin 40) (e : Fin 64) (h : p.val * 40 + f.val < 5120) :
    shapeCast S128x40x64 y shapeCasts_S5120x64_S128x40x64 (ix3 p f e) = y (ix2 (⟨p.val * 40 + f.val, h⟩ : Fin 5120) e) := by
  refine shapeCast_apply y _ _ (ix2 (⟨p.val * 40 + f.val, h⟩ : Fin 5120) e) ?_
  rw [Shape.rowMajor_val_three, Shape.rowMajor_val_two]
  rfl

/-- A 128 x 40 array given a unit last axis and spread over 40 columns reads its entry (p, a) at every (p, a, c). -/
theorem col_at {α : Type} (v : S128x40.Idx → α) (p : Fin 128) (a c : Fin 40) :
    broadcastTo S128x40x40 (shapeCast S128x40x1 v shapeCasts_S128x40_S128x40x1) broadcasts_S128x40x1_S128x40x40 (ix3 p a c)
      = v (ix2 p a) := by
  rw [broadcastTo_apply _ broadcasts_S128x40x1_S128x40x40 (ix3 p a c) (ix3 p a (0 : Fin 1)) (fun d => by
    match d with
    | ⟨0, _⟩ => show p.val = if (128 : Nat) = 1 then 0 else p.val; rw [if_neg (by decide)]
    | ⟨1, _⟩ => show a.val = if (40 : Nat) = 1 then 0 else a.val; rw [if_neg (by decide)]
    | ⟨2, _⟩ => show 0 = if (1 : Nat) = 1 then 0 else c.val; rw [if_pos rfl])]
  refine shapeCast_apply v _ _ (ix2 p a) ?_
  rw [Shape.rowMajor_val_three, Shape.rowMajor_val_two]
  show p.val * 40 + a.val = (p.val * 40 + a.val) * 1 + 0
  omega

/-! ### The two reductions over the last axis -/

/-- A maximum over the last axis at (p, a): the fold of max from minus infinity over the 40 entries (p, a, c). -/
theorem rmax_at (src : FVec Ideal S128x40x40 .f32) (p : Fin 128) (a : Fin 40) :
    multiReduction .maximumf [2] S128x40 src 0xFF800000#32 reduces_S128x40x40_S128x40 (.inl rfl) rfl (ix2 p a)
      = (Finset.univ : Finset (Fin 40)).fold max negInf (fun c => src (ix3 p a c)) := by
  refine (Ideal.multiReduction_maximumf_single src 0xFF800000#32 reduces_S128x40x40_S128x40 (.inl rfl) rfl (ix2 p a)).trans ?_
  refine Finset.fold_congr fun (c : Fin 40) _ => ?_
  show src (reduces_S128x40x40_S128x40.lift (ix2 p a) c) = src (ix3 p a c)
  exact congrArg src (funext fun d => Fin.ext (by match d with | ⟨0, _⟩ => rfl | ⟨1, _⟩ => rfl | ⟨2, _⟩ => rfl))

/-- A sum over the last axis at (p, a): the sum of the 40 entries (p, a, c). -/
theorem rsum_at (src : FVec Ideal S128x40x40 .f32) (p : Fin 128) (a : Fin 40) :
    multiReduction .add [2] S128x40 src 0x00000000#32 reduces_S128x40x40_S128x40 (.inl rfl) rfl (ix2 p a)
      = ∑ c : Fin 40, src (ix3 p a c) := by
  refine (Ideal.multiReduction_add_single src 0x00000000#32 reduces_S128x40x40_S128x40 (.inl rfl) rfl (ix2 p a)).trans ?_
  refine Finset.sum_congr rfl fun (c : Fin 40) _ => ?_
  exact congrArg src (funext fun d => Fin.ext (by match d with | ⟨0, _⟩ => rfl | ⟨1, _⟩ => rfl | ⟨2, _⟩ => rfl))

/-! ### The scores' product: batch axis 0, both operands contracted on the feature axis -/

theorem qk_lhs_0 (i : S128x40x40.Idx) (q : dot_S128x40x64_S128x40x64_S128x40x40_2_2_1_1_0_0.contr.Idx) :
    (dot_S128x40x64_S128x40x64_S128x40x40_2_2_1_1_0_0.lhsIdx i q 0).val = (i 0).val := by
  unfold DotDims.lhsIdx
  rw [dif_pos (show (0 : Fin S128x40x64.rank) ∈ dot_S128x40x64_S128x40x64_S128x40x40_2_2_1_1_0_0.lhsBatch by decide)]
  rfl
theorem qk_lhs_1 (i : S128x40x40.Idx) (q : dot_S128x40x64_S128x40x64_S128x40x40_2_2_1_1_0_0.contr.Idx) :
    (dot_S128x40x64_S128x40x64_S128x40x40_2_2_1_1_0_0.lhsIdx i q 1).val = (i 1).val := by
  unfold DotDims.lhsIdx
  rw [dif_neg (show ¬(1 : Fin S128x40x64.rank) ∈ dot_S128x40x64_S128x40x64_S128x40x40_2_2_1_1_0_0.lhsBatch by decide), dif_pos (show (1 : Fin S128x40x64.rank) ∈ dot_S128x40x64_S128x40x64_S128x40x40_2_2_1_1_0_0.lhsNonContracting by decide)]
  rfl
theorem qk_lhs_2 (i : S128x40x40.Idx) (q : dot_S128x40x64_S128x40x64_S128x40x40_2_2_1_1_0_0.contr.Idx) :
    (dot_S128x40x64_S128x40x64_S128x40x40_2_2_1_1_0_0.lhsIdx i q 2).val = (q ⟨0, by decide⟩).val :=
  dot_S128x40x64_S128x40x64_S128x40x40_2_2_1_1_0_0.lhsIdx_val_of_single rfl i q
theorem qk_rhs_0 (i : S128x40x40.Idx) (q : dot_S128x40x64_S128x40x64_S128x40x40_2_2_1_1_0_0.contr.Idx) :
    (dot_S128x40x64_S128x40x64_S128x40x40_2_2_1_1_0_0.rhsIdx i q 0).val = (i 0).val := by
  unfold DotDims.rhsIdx
  rw [dif_pos (show (0 : Fin S128x40x64.rank) ∈ dot_S128x40x64_S128x40x64_S128x40x40_2_2_1_1_0_0.rhsBatch by decide)]
  rfl
theorem qk_rhs_1 (i : S128x40x40.Idx) (q : dot_S128x40x64_S128x40x64_S128x40x40_2_2_1_1_0_0.contr.Idx) :
    (dot_S128x40x64_S128x40x64_S128x40x40_2_2_1_1_0_0.rhsIdx i q 1).val = (i 2).val := by
  unfold DotDims.rhsIdx
  rw [dif_neg (show ¬(1 : Fin S128x40x64.rank) ∈ dot_S128x40x64_S128x40x64_S128x40x40_2_2_1_1_0_0.rhsBatch by decide), dif_pos (show (1 : Fin S128x40x64.rank) ∈ dot_S128x40x64_S128x40x64_S128x40x40_2_2_1_1_0_0.rhsNonContracting by decide)]
  rfl
theorem qk_rhs_2 (i : S128x40x40.Idx) (q : dot_S128x40x64_S128x40x64_S128x40x40_2_2_1_1_0_0.contr.Idx) :
    (dot_S128x40x64_S128x40x64_S128x40x40_2_2_1_1_0_0.rhsIdx i q 2).val = (q ⟨0, by decide⟩).val :=
  dot_S128x40x64_S128x40x64_S128x40x40_2_2_1_1_0_0.rhsIdx_val_of_single rfl i q

/-- The scores' product at (p, a, c): the sum over the features of the left operand at (p, a, k) times the right at (p, c, k). -/
theorem qk_at {φ₁ φ₂ : FTy} (l : FVec Ideal S128x40x64 φ₁) (r : FVec Ideal S128x40x64 φ₂) (p : Fin 128) (a c : Fin 40) :
    matmul dot_S128x40x64_S128x40x64_S128x40x40_2_2_1_1_0_0 none l r (constant S128x40x40 .f32 0x00000000#32) (ix3 p a c)
      = ∑ k : Fin 64, l (ix3 p a k) * r (ix3 p c k) := by
  show FloatOps.matmul dot_S128x40x64_S128x40x64_S128x40x40_2_2_1_1_0_0 none l r (constant S128x40x40 .f32 0x00000000#32) (ix3 p a c) = _
  rw [Ideal.matmul_constant_zero_apply, ← Equiv.sum_comp (contrEquiv1 dot_S128x40x64_S128x40x64_S128x40x40_2_2_1_1_0_0 64 rfl rfl).symm]
  refine Finset.sum_congr rfl fun k _ => ?_
  have hk := contrEquiv1_symm_val dot_S128x40x64_S128x40x64_S128x40x40_2_2_1_1_0_0 64 rfl rfl k
  have el : dot_S128x40x64_S128x40x64_S128x40x40_2_2_1_1_0_0.lhsIdx (ix3 p a c) ((contrEquiv1 dot_S128x40x64_S128x40x64_S128x40x40_2_2_1_1_0_0 64 rfl rfl).symm k) = ix3 p a k := funext fun d => Fin.ext (by
    match d with
    | ⟨0, _⟩ => exact qk_lhs_0 _ _
    | ⟨1, _⟩ => exact qk_lhs_1 _ _
    | ⟨2, _⟩ => exact (qk_lhs_2 _ _).trans hk)
  have er : dot_S128x40x64_S128x40x64_S128x40x40_2_2_1_1_0_0.rhsIdx (ix3 p a c) ((contrEquiv1 dot_S128x40x64_S128x40x64_S128x40x40_2_2_1_1_0_0 64 rfl rfl).symm k) = ix3 p c k := funext fun d => Fin.ext (by
    match d with
    | ⟨0, _⟩ => exact qk_rhs_0 _ _
    | ⟨1, _⟩ => exact qk_rhs_1 _ _
    | ⟨2, _⟩ => exact (qk_rhs_2 _ _).trans hk)
  rw [el, er]

/-! ### The weighted values' product: batch axis 0, the weights contracted on their last axis, the values on their field axis -/

theorem pv_lhs_0 (i : S128x40x64.Idx) (q : dot_S128x40x40_S128x40x64_S128x40x64_2_1_1_2_0_0.contr.Idx) :
    (dot_S128x40x40_S128x40x64_S128x40x64_2_1_1_2_0_0.lhsIdx i q 0).val = (i 0).val := by
  unfold DotDims.lhsIdx
  rw [dif_pos (show (0 : Fin S128x40x40.rank) ∈ dot_S128x40x40_S128x40x64_S128x40x64_2_1_1_2_0_0.lhsBatch by decide)]
  rfl
theorem pv_lhs_1 (i : S128x40x64.Idx) (q : dot_S128x40x40_S128x40x64_S128x40x64_2_1_1_2_0_0.contr.Idx) :
    (dot_S128x40x40_S128x40x64_S128x40x64_2_1_1_2_0_0.lhsIdx i q 1).val = (i 1).val := by
  unfold DotDims.lhsIdx
  rw [dif_neg (show ¬(1 : Fin S128x40x40.rank) ∈ dot_S128x40x40_S128x40x64_S128x40x64_2_1_1_2_0_0.lhsBatch by decide), dif_pos (show (1 : Fin S128x40x40.rank) ∈ dot_S128x40x40_S128x40x64_S128x40x64_2_1_1_2_0_0.lhsNonContracting by decide)]
  rfl
theorem pv_lhs_2 (i : S128x40x64.Idx) (q : dot_S128x40x40_S128x40x64_S128x40x64_2_1_1_2_0_0.contr.Idx) :
    (dot_S128x40x40_S128x40x64_S128x40x64_2_1_1_2_0_0.lhsIdx i q 2).val = (q ⟨0, by decide⟩).val :=
  dot_S128x40x40_S128x40x64_S128x40x64_2_1_1_2_0_0.lhsIdx_val_of_single rfl i q
theorem pv_rhs_0 (i : S128x40x64.Idx) (q : dot_S128x40x40_S128x40x64_S128x40x64_2_1_1_2_0_0.contr.Idx) :
    (dot_S128x40x40_S128x40x64_S128x40x64_2_1_1_2_0_0.rhsIdx i q 0).val = (i 0).val := by
  unfold DotDims.rhsIdx
  rw [dif_pos (show (0 : Fin S128x40x64.rank) ∈ dot_S128x40x40_S128x40x64_S128x40x64_2_1_1_2_0_0.rhsBatch by decide)]
  rfl
theorem pv_rhs_1 (i : S128x40x64.Idx) (q : dot_S128x40x40_S128x40x64_S128x40x64_2_1_1_2_0_0.contr.Idx) :
    (dot_S128x40x40_S128x40x64_S128x40x64_2_1_1_2_0_0.rhsIdx i q 1).val = (q ⟨0, by decide⟩).val :=
  dot_S128x40x40_S128x40x64_S128x40x64_2_1_1_2_0_0.rhsIdx_val_of_single rfl i q
theorem pv_rhs_2 (i : S128x40x64.Idx) (q : dot_S128x40x40_S128x40x64_S128x40x64_2_1_1_2_0_0.contr.Idx) :
    (dot_S128x40x40_S128x40x64_S128x40x64_2_1_1_2_0_0.rhsIdx i q 2).val = (i 2).val := by
  unfold DotDims.rhsIdx
  rw [dif_neg (show ¬(2 : Fin S128x40x64.rank) ∈ dot_S128x40x40_S128x40x64_S128x40x64_2_1_1_2_0_0.rhsBatch by decide), dif_pos (show (2 : Fin S128x40x64.rank) ∈ dot_S128x40x40_S128x40x64_S128x40x64_2_1_1_2_0_0.rhsNonContracting by decide)]
  rfl

/-- The weighted values' product at (p, f, e): the sum over the fields of the weights at (p, f, k) times the values at (p, k, e). -/
theorem pv_at {φ₁ φ₂ : FTy} (l : FVec Ideal S128x40x40 φ₁) (r : FVec Ideal S128x40x64 φ₂) (p : Fin 128) (f : Fin 40) (e : Fin 64) :
    matmul dot_S128x40x40_S128x40x64_S128x40x64_2_1_1_2_0_0 none l r (constant S128x40x64 .f32 0x00000000#32) (ix3 p f e)
      = ∑ k : Fin 40, l (ix3 p f k) * r (ix3 p k e) := by
  show FloatOps.matmul dot_S128x40x40_S128x40x64_S128x40x64_2_1_1_2_0_0 none l r (constant S128x40x64 .f32 0x00000000#32) (ix3 p f e) = _
  rw [Ideal.matmul_constant_zero_apply, ← Equiv.sum_comp (contrEquiv1 dot_S128x40x40_S128x40x64_S128x40x64_2_1_1_2_0_0 40 rfl rfl).symm]
  refine Finset.sum_congr rfl fun k _ => ?_
  have hk := contrEquiv1_symm_val dot_S128x40x40_S128x40x64_S128x40x64_2_1_1_2_0_0 40 rfl rfl k
  have el : dot_S128x40x40_S128x40x64_S128x40x64_2_1_1_2_0_0.lhsIdx (ix3 p f e) ((contrEquiv1 dot_S128x40x40_S128x40x64_S128x40x64_2_1_1_2_0_0 40 rfl rfl).symm k) = ix3 p f k := funext fun d => Fin.ext (by
    match d with
    | ⟨0, _⟩ => exact pv_lhs_0 _ _
    | ⟨1, _⟩ => exact pv_lhs_1 _ _
    | ⟨2, _⟩ => exact (pv_lhs_2 _ _).trans hk)
  have er : dot_S128x40x40_S128x40x64_S128x40x64_2_1_1_2_0_0.rhsIdx (ix3 p f e) ((contrEquiv1 dot_S128x40x40_S128x40x64_S128x40x64_2_1_1_2_0_0 40 rfl rfl).symm k) = ix3 p k e := funext fun d => Fin.ext (by
    match d with
    | ⟨0, _⟩ => exact pv_rhs_0 _ _
    | ⟨1, _⟩ => exact (pv_rhs_1 _ _).trans hk
    | ⟨2, _⟩ => exact pv_rhs_2 _ _)
  rw [el, er]

/-! ### The stages -/

section Stages

variable (x : FVec Ideal S128x40x64 .f32) (wq wk wv wr : FVec Ideal S64x64 .f32)

/-- A projection of the block: the block as a 5120 x 64 matrix times a weight, viewed as a block again. -/
def kProj (x : FVec Ideal S128x40x64 .f32) (w : FVec Ideal S64x64 .f32) : FVec Ideal S128x40x64 .f32 :=
  shapeCast S128x40x64 (matmul dot_S5120x64_S64x64_S5120x64_1_0_0_1_n_n none
      (shapeCast S5120x64 (truncf .bf16 x bitsLt_bf16_f32) shapeCasts_S128x40x64_S5120x64)
      (truncf .bf16 w bitsLt_bf16_f32) (constant S5120x64 .f32 0x00000000#32)) shapeCasts_S5120x64_S128x40x64

/-- The scores of the block. -/
def kScore : FVec Ideal S128x40x40 .f32 :=
  matmul dot_S128x40x64_S128x40x64_S128x40x40_2_2_1_1_0_0 none (truncf .bf16 (kProj x wq) bitsLt_bf16_f32) (truncf .bf16 (kProj x wk) bitsLt_bf16_f32)
    (constant S128x40x40 .f32 0x00000000#32)

/-- The row maxima of the block. -/
def kMax : FVec Ideal S128x40 .f32 :=
  maximumf (broadcast S128x40 (Scalar.ofBits .f32 0xFF800000#32))
    (multiReduction .maximumf [2] S128x40 (kScore x wq wk) 0xFF800000#32 reduces_S128x40x40_S128x40 (.inl rfl) rfl)

/-- The shifted exponentials of the block. -/
def kExp : FVec Ideal S128x40x40 .f32 :=
  exp (subf (kScore x wq wk)
    (broadcastTo S128x40x40 (shapeCast S128x40x1 (kMax x wq wk) shapeCasts_S128x40_S128x40x1) broadcasts_S128x40x1_S128x40x40))

/-- Their sums over the last axis. -/
def kDen : FVec Ideal S128x40 .f32 :=
  multiReduction .add [2] S128x40 (kExp x wq wk) 0x00000000#32 reduces_S128x40x40_S128x40 (.inl rfl) rfl

/-- The attention weights of the block. -/
def kProb : FVec Ideal S128x40x40 .f32 :=
  divf (kExp x wq wk)
    (broadcastTo S128x40x40 (shapeCast S128x40x1 (kDen x wq wk) shapeCasts_S128x40_S128x40x1) broadcasts_S128x40x1_S128x40x40)

/-- What the block's grid point stores. -/
def kOut : FVec Ideal S128x40x64 .f32 :=
  maximumf (addf (matmul dot_S128x40x40_S128x40x64_S128x40x64_2_1_1_2_0_0 none (truncf .bf16 (kProb x wq wk) bitsLt_bf16_f32) (truncf .bf16 (kProj x wv) bitsLt_bf16_f32)
      (constant S128x40x64 .f32 0x00000000#32)) (kProj x wr))
    (broadcast S128x40x64 (Scalar.ofBits .f32 0x00000000#32))

/-- The stored value as the kernel's text spells it is the composition of the stages. -/
theorem pay_eq (x : Vec Ideal S128x40x64 .f32) (wq wk wv wr : Vec Ideal S64x64 .f32) :
    k0_pay1 (F := Ideal) (k0_pay2 x wq wk wv wr) (k0_pay3 (F := Ideal)) = kOut x wq wk wv wr := rfl

/-- A projection at (p, f, e): row p's projection. -/
theorem kProj_at (x : FVec Ideal S128x40x64 .f32) (w : FVec Ideal S64x64 .f32) (p : Fin 128) (f : Fin 40) (e : Fin 64) :
    kProj x w (ix3 p f e) = proj (rowOf (B := 128) x p) (matOf w) f e := by
  have h : p.val * 40 + f.val < 5120 := by have := p.isLt; have := f.isLt; omega
  unfold kProj
  rw [unflat_at _ p f e h]
  show FloatOps.matmul (DotDims.plain 5120 64 64) none
      (shapeCast S5120x64 (truncf .bf16 x bitsLt_bf16_f32) shapeCasts_S128x40x64_S5120x64) (truncf .bf16 w bitsLt_bf16_f32)
      (constant (⟨2, ![5120, 64]⟩ : Shape) .f32 0x00000000#32) (ix2 (⟨p.val * 40 + f.val, h⟩ : Fin 5120) e) = _
  rw [plain_matmul_zero_apply]; unfold proj
  refine Finset.sum_congr rfl fun k _ => ?_
  show shapeCast S5120x64 (truncf .bf16 x bitsLt_bf16_f32) shapeCasts_S128x40x64_S5120x64 (ix2 (⟨p.val * 40 + f.val, h⟩ : Fin 5120) k) * _ = _
  rw [flat_at _ p f k h]
  rfl

/-- The scores at (p, a, c). -/
theorem kScore_at (p : Fin 128) (a c : Fin 40) :
    kScore x wq wk (ix3 p a c) = score (rowOf (B := 128) x p) (matOf wq) (matOf wk) a c := by
  unfold kScore; rw [qk_at]; unfold score
  refine Finset.sum_congr rfl fun k _ => ?_
  rw [truncf_apply, truncf_apply, kProj_at, kProj_at]

/-- The row maximum at (p, a). -/
theorem kMax_at (p : Fin 128) (a : Fin 40) :
    kMax x wq wk (ix2 p a) = rowMax (rowOf (B := 128) x p) (matOf wq) (matOf wk) a := by
  unfold kMax; rw [maximumf_apply, rmax_at]; unfold rowMax
  refine congrArg (max _) (Finset.fold_congr fun c _ => ?_)
  exact kScore_at x wq wk p a c

/-- The shifted exponentials at (p, a, c). -/
theorem kExp_at (p : Fin 128) (a c : Fin 40) :
    kExp x wq wk (ix3 p a c) = expo (rowOf (B := 128) x p) (matOf wq) (matOf wk) a c := by
  unfold kExp
  show Ideal.exp (kScore x wq wk (ix3 p a c) - broadcastTo S128x40x40 (shapeCast S128x40x1 (kMax x wq wk) shapeCasts_S128x40_S128x40x1) broadcasts_S128x40x1_S128x40x40 (ix3 p a c)) = _
  rw [col_at, kScore_at, kMax_at]; rfl

/-- Their sum at (p, a). -/
theorem kDen_at (p : Fin 128) (a : Fin 40) :
    kDen x wq wk (ix2 p a) = denom (rowOf (B := 128) x p) (matOf wq) (matOf wk) a := by
  unfold kDen; rw [rsum_at]; unfold denom
  exact Finset.sum_congr rfl fun c _ => kExp_at x wq wk p a c

/-- The attention weights at (p, a, c). -/
theorem kProb_at (p : Fin 128) (a c : Fin 40) :
    kProb x wq wk (ix3 p a c) = prob (rowOf (B := 128) x p) (matOf wq) (matOf wk) a c := by
  unfold kProb
  show Ideal.div (kExp x wq wk (ix3 p a c)) (broadcastTo S128x40x40 (shapeCast S128x40x1 (kDen x wq wk) shapeCasts_S128x40_S128x40x1) broadcasts_S128x40x1_S128x40x40 (ix3 p a c)) = _
  rw [col_at, kExp_at, kDen_at]; rfl

/-- What the grid point stores, at (p, f, e), is the row function of row p of the block. -/
theorem kOut_at (p : Fin 128) (f : Fin 40) (e : Fin 64) :
    kOut x wq wk wv wr (ix3 p f e) = attnRow (rowOf (B := 128) x p) (matOf wq) (matOf wk) (matOf wv) (matOf wr) f e := by
  unfold kOut
  rw [maximumf_apply, addf_apply, pv_at, kProj_at]; unfold attnRow
  refine congrArg (fun s => max (s + _) _) (Finset.sum_congr rfl fun c _ => ?_)
  rw [truncf_apply, truncf_apply, kProb_at, kProj_at]

/-- What the grid point stores is the row function on every row of the block. -/
theorem kOut_eq : kOut x wq wk wv wr = attnArr (B := 128) x wq wk wv wr := by
  funext i
  obtain ⟨p, f, e, rfl⟩ : ∃ (p : Fin 128) (f : Fin 40) (e : Fin 64), i = ix3 p f e := ⟨i 0, i 1, i 2, eq_ix3 i⟩
  exact kOut_at x wq wk wv wr p f e

end Stages

end Cert.Attn.Ker

end
-- ==== Proof.KernelArray.lean ====
/-
  From the blocks to the array.

  The grid has 128 points; point t stages rows 128 t .. 128 t + 127 of the input and the four weights whole, and
  writes back rows 128 t .. 128 t + 127 of the result.  Because the row function treats every batch row by itself,
  what point t writes is the restriction of the whole-array result to those rows; the 128 blocks tile the 16384
  rows, so after the run the result array is the row function on every row of the input.
-/
import proofs.«156122_j76630806495342_1_alg».proof.Proof.Gen.KernelIdeal.Value
import proofs.«156122_j76630806495342_1_alg».proof.Proof.KernelStages

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The row function depends only on its arguments. -/
theorem attnRow_congr {X X' : Fin 40 → Fin 64 → EReal} {Wq Wq' Wk Wk' Wv Wv' Wr Wr' : Fin 64 → Fin 64 → EReal}
    {f f' : Fin 40} {e e' : Fin 64} (hX : X = X') (hq : Wq = Wq') (hk : Wk = Wk') (hv : Wv = Wv') (hr : Wr = Wr')
    (hf : f = f') (he : e = e') : attnRow X Wq Wk Wv Wr f e = attnRow X' Wq' Wk' Wv' Wr' f' e' := by
  subst hX hq hk hv hr hf he; rfl

/-- What a grid point stores, as the kernel's text spells it, is the row function on every row of its block. -/
theorem pay_is_attn (x : Vec Ideal S128x40x64 .f32) (wq wk wv wr : Vec Ideal S64x64 .f32) :
    k0_pay1 (F := Ideal) (k0_pay2 x wq wk wv wr) (k0_pay3 (F := Ideal)) = attnArr (B := 128) x wq wk wv wr :=
  (Ker.pay_eq x wq wk wv wr).trans (Ker.kOut_eq x wq wk wv wr)

/-- The printed index maps, decided over the grid: the input's and the result's block index is the point on the batch
    axis and zero on the others; the weights' block index is zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The result array as one function of the argument arrays as the region finds them. -/
abbrev result (c : Dev nD) : S16384x40x64.Idx → EReal :=
  attnArr (B := 16384) (V m c main_arg0) (V m c main_arg1) (V m c main_arg2) (V m c main_arg3) (V m c main_arg4)

/-- A weight's block is the weight: the one block starts at the origin. -/
theorem wblk1 (c : Dev nD) (t : Fin cfg0.N) : matOf (iblk m c 1 t) = matOf (V m c main_arg1) := by
  obtain ⟨-, -, -, -, -, -, e0, e1, -⟩ := idx_facts t
  funext d e
  show V m c main_arg1 (((cfg0.win 1).blk t).view.emb (ix2 d e)) = V m c main_arg1 (ix2 d e)
  refine congrArg _ (funext fun a => Fin.ext ?_)
  match a with
  | ⟨0, _⟩ => show win0_1.index t (0 : Fin 2) * 64 + 1 * d.val = d.val; omega
  | ⟨1, _⟩ => show win0_1.index t (1 : Fin 2) * 64 + 1 * e.val = e.val; omega

theorem wblk2 (c : Dev nD) (t : Fin cfg0.N) : matOf (iblk m c 2 t) = matOf (V m c main_arg2) := by
  obtain ⟨-, -, -, -, -, -, -, -, e0, e1, -⟩ := idx_facts t
  funext d e
  show V m c main_arg2 (((cfg0.win 2).blk t).view.emb (ix2 d e)) = V m c main_arg2 (ix2 d e)
  refine congrArg _ (funext fun a => Fin.ext ?_)
  match a with
  | ⟨0, _⟩ => show win0_2.index t (0 : Fin 2) * 64 + 1 * d.val = d.val; omega
  | ⟨1, _⟩ => show win0_2.index t (1 : Fin 2) * 64 + 1 * e.val = e.val; omega

theorem wblk3 (c : Dev nD) (t : Fin cfg0.N) : matOf (iblk m c 3 t) = matOf (V m c main_arg3) := by
  obtain ⟨-, -, -, -, -, -, -, -, -, -, e0, e1, -⟩ := idx_facts t
  funext d e
  show V m c main_arg3 (((cfg0.win 3).blk t).view.emb (ix2 d e)) = V m c main_arg3 (ix2 d e)
  refine congrArg _ (funext fun a => Fin.ext ?_)
  match a with
  | ⟨0, _⟩ => show win0_3.index t (0 : Fin 2) * 64 + 1 * d.val = d.val; omega
  | ⟨1, _⟩ => show win0_3.index t (1 : Fin 2) * 64 + 1 * e.val = e.val; omega

theorem wblk4 (c : Dev nD) (t : Fin cfg0.N) : matOf (iblk m c 4 t) = matOf (V m c main_arg4) := by
  obtain ⟨-, -, -, -, -, -, -, -, -, -, -, -, e0, e1⟩ := idx_facts t
  funext d e
  show V m c main_arg4 (((cfg0.win 4).blk t).view.emb (ix2 d e)) = V m c main_arg4 (ix2 d e)
  refine congrArg _ (funext fun a => Fin.ext ?_)
  match a with
  | ⟨0, _⟩ => show win0_4.index t (0 : Fin 2) * 64 + 1 * d.val = d.val; omega
  | ⟨1, _⟩ => show win0_4.index t (1 : Fin 2) * 64 + 1 * e.val = e.val; omega

/-- WHAT POINT t WRITES BACK is block t of the whole-array result. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz3]
  simp only [View.ld_unit_zero (S := S128x40x64) hz3, View.ld_unit_zero (S := S64x64) hz2]
  rw [pay_is_attn]
  obtain ⟨a0, a1, a2, b0, b1, b2, -⟩ := idx_facts t
  funext j
  show attnRow (rowOf (B := 128) (iblk m c 0 t) (j 0)) (matOf (iblk m c 1 t)) (matOf (iblk m c 2 t)) (matOf (iblk m c 3 t)) (matOf (iblk m c 4 t)) (j 1) (j 2)
    = attnRow (rowOf (B := 16384) (V m c main_arg0) ((((cfg0.win 5).blk t).view.emb j) 0)) (matOf (V m c main_arg1)) (matOf (V m c main_arg2))
        (matOf (V m c main_arg3)) (matOf (V m c main_arg4)) ((((cfg0.win 5).blk t).view.emb j) 1) ((((cfg0.win 5).blk t).view.emb j) 2)
  refine attnRow_congr ?_ (wblk1 m c t) (wblk2 m c t) (wblk3 m c t) (wblk4 m c t) (Fin.ext ?_) (Fin.ext ?_)
  · funext f d
    show V m c main_arg0 (((cfg0.win 0).blk t).view.emb (ix3 (j 0) f d)) = V m c main_arg0 (ix3 ((((cfg0.win 5).blk t).view.emb j) 0) f d)
    refine congrArg _ (funext fun a => Fin.ext ?_)
    match a with
    | ⟨0, _⟩ => show win0_0.index t (0 : Fin 3) * 128 + 1 * (j 0).val = win0_5.index t (0 : Fin 3) * 128 + 1 * (j 0).val; omega
    | ⟨1, _⟩ => show win0_0.index t (1 : Fin 3) * 40 + 1 * f.val = f.val; omega
    | ⟨2, _⟩ => show win0_0.index t (2 : Fin 3) * 64 + 1 * d.val = d.val; omega
  · show (j 1).val = win0_5.index t (1 : Fin 3) * 40 + 1 * (j 1).val; omega
  · show (j 2).val = win0_5.index t (2 : Fin 3) * 64 + 1 * (j 2).val; omega

/-- An index of the array is in point t's block iff each coordinate is in the block's range on its axis. -/
theorem mem_blk (t : Fin cfg0.N) (i : S16384x40x64.Idx) :
    i ∈ ((cfg0.win 5).blk t).view.set ↔ ∀ a : Fin 3, win0_5.index t a * S128x40x64.size a ≤ (i a).val ∧ (i a).val < win0_5.index t a * S128x40x64.size a + S128x40x64.size a := by
  show i ∈ ((View.whole main_v0).slice (win0_5.rect t)).set ↔ _
  rw [View.set_slice_whole, Rect.mem_set_unit]
  exact Iff.rfl

/-- The 128 blocks tile the array: row r is in the block of point r / 128. -/
theorem cover (i : S16384x40x64.Idx) : ∃ t : Fin cfg0.N, (cfg0.win 5).flush t = true ∧ i ∈ ((cfg0.win 5).blk t).view.set := by
  have hi0 : (i 0).val < 16384 := (i 0).isLt
  have hi1 : (i 1).val < 40 := (i 1).isLt
  have hi2 : (i 2).val < 64 := (i 2).isLt
  have hN : cfg0.N = 128 := N_0
  let t : Fin cfg0.N := ⟨(i 0).val / 128, by rw [hN]; omega⟩
  obtain ⟨-, -, -, b0, b1, b2, -⟩ := idx_facts t
  have ht : t.val = (i 0).val / 128 := rfl
  refine ⟨t, flush0_5 t, ?_⟩
  rw [mem_blk]
  intro a
  match a with
  | ⟨0, _⟩ => show win0_5.index t (0 : Fin 3) * 128 ≤ (i 0).val ∧ (i 0).val < win0_5.index t (0 : Fin 3) * 128 + 128; omega
  | ⟨1, _⟩ => show win0_5.index t (1 : Fin 3) * 40 ≤ (i 1).val ∧ (i 1).val < win0_5.index t (1 : Fin 3) * 40 + 40; omega
  | ⟨2, _⟩ => show win0_5.index t (2 : Fin 3) * 64 ≤ (i 2).val ∧ (i 2).val < win0_5.index t (2 : Fin 3) * 64 + 64; omega

/-- THE ARRAY after the run is the whole-array result of the arguments as launched. -/
theorem final (c : Dev nD) : (dats m 0 c).arrAt 5 cfg0.N
    = attnArr (B := 16384) (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 (result m c) (fun t _ => flushed_eq m c t) cover

/-- The run, read: the result array at the row function of the arguments, the arguments unchanged. -/
theorem run : θ_run defs (onTc (τ := τ) (main (F := Ideal))) ⟨m, fun _ => 0, ρ⟩ fun r => ∀ c : Dev nD,
      r.2.mem ((c : Thread nD τ).loc main_v0)
        = attnArr (B := 16384) (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.lean ====
/-
  Self-attention over 40 fields, row by row: the kernel against its reference, on the extended reals.

  Both programs compute, for each of the 16384 batch rows X (40 x 64) and the weights Wq, Wk, Wv, Wr (64 x 64),
  max (softmax (Q K^T) V + R, 0) with Q = X Wq, K = X Wk, V = X Wv, R = X Wr, where the softmax of a row of scores
  subtracts the row's maximum (folded from minus infinity), exponentiates, and divides by the sum.  The kernel does
  it 128 rows at a time over a grid of 128 points, with the projections as one flat matrix product per weight and the
  two inner products batched over the block's rows; the reference does it on whole arrays.  Narrowing to sixteen bits
  is the identity on extended reals, every product is the same finite sum, and the operations are applied in the same
  order on both sides, so the two results are one function of the inputs (Proof/AttnSpec.lean): the reference stage
  by stage in Proof/RefStages.lean, the kernel's block stage by stage in Proof/KernelStages.lean, and the 128 blocks
  tiling the array in Proof/KernelArray.lean.  No finiteness of the inputs is used.  The kernel's idealization
  rewrote no operation, so there is nothing to preserve.
-/
import proofs.«156122_j76630806495342_1_alg».proof.Defs
import proofs.«156122_j76630806495342_1_alg».proof.Proof.Gen.Kernel
import proofs.«156122_j76630806495342_1_alg».proof.Proof.Gen.Kernel.Skeleton
import proofs.«156122_j76630806495342_1_alg».proof.Proof.Gen.Kernel.Launch
import proofs.«156122_j76630806495342_1_alg».proof.Proof.Gen.Kernel.Points
import proofs.«156122_j76630806495342_1_alg».proof.Proof.Gen.Kernel.Frame
import proofs.«156122_j76630806495342_1_alg».proof.Proof.Gen.KernelIdeal
import proofs.«156122_j76630806495342_1_alg».proof.Proof.Gen.KernelIdeal.Skeleton
import proofs.«156122_j76630806495342_1_alg».proof.Proof.Gen.KernelIdeal.Launch
import proofs.«156122_j76630806495342_1_alg».proof.Proof.Gen.KernelIdeal.Points
import proofs.«156122_j76630806495342_1_alg».proof.Proof.Gen.KernelIdeal.Frame
import proofs.«156122_j76630806495342_1_alg».proof.Proof.Gen.ReferenceIdeal
import proofs.«156122_j76630806495342_1_alg».proof.Proof.Gen.Pre_finite_inputs
import proofs.«156122_j76630806495342_1_alg».proof.Proof.Gen.KernelIdeal.Value
import proofs.«156122_j76630806495342_1_alg».proof.Proof.Gen.ReferenceIdeal.Run
import proofs.«156122_j76630806495342_1_alg».proof.Proof.Gen.ReferenceIdeal.Read
import proofs.«156122_j76630806495342_1_alg».proof.Proof.RefStages
import proofs.«156122_j76630806495342_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments, the kernel's result array and the reference's are both the row
    function applied to every batch row of the input. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Attn.Ref.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
